-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S32x16 .f32) (main_arg5 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x32 .f32) (main_arg3 : FVec F S32 .f32) (main_arg4 : FVec F S32x16 .f32) (main_arg5 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S1x32 : Shape := ⟨2, ![1, 32]⟩
abbrev S1x16 : Shape := ⟨2, ![1, 16]⟩
abbrev S10000x32 : Shape := ⟨2, ![10000, 32]⟩
abbrev S10000x16 : Shape := ⟨2, ![10000, 16]⟩
abbrev S400x10000 : Shape := ⟨2, ![400, 10000]⟩
abbrev S400x16 : Shape := ⟨2, ![400, 16]⟩
abbrev S400x32 : Shape := ⟨2, ![400, 32]⟩

abbrev nBuf : Space → Nat
  | .hbm => 11
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S1x32, .f32⟩
  | .hbm, ⟨7, _⟩ => ⟨S1x16, .f32⟩
  | .hbm, ⟨8, _⟩ => ⟨S10000x32, .f32⟩
  | .hbm, ⟨9, _⟩ => ⟨S10000x16, .f32⟩
  | .hbm, ⟨10, _⟩ => ⟨S10000x16, .f32⟩
  | .local _ .vmem, ⟨0, _⟩ => ⟨S10000x128, .f32⟩
  | .local _ .vmem, ⟨1, _⟩ => ⟨S128x32, .f32⟩
  | .local _ .vmem, ⟨2, _⟩ => ⟨S10000x32, .f32⟩
  | .local _ .vmem, ⟨3, _⟩ => ⟨S400x10000, .f32⟩
  | .local _ .vmem, ⟨4, _⟩ => ⟨S400x10000, .f32⟩
  | .local _ .vmem, ⟨5, _⟩ => ⟨S10000x32, .f32⟩
  | .local _ .vmem, ⟨6, _⟩ => ⟨S1x32, .f32⟩
  | .local _ .vmem, ⟨7, _⟩ => ⟨S32x16, .f32⟩
  | .local _ .vmem, ⟨8, _⟩ => ⟨S400x16, .f32⟩
  | .local _ .vmem, ⟨9, _⟩ => ⟨S400x16, .f32⟩
  | .local _ .vmem, ⟨10, _⟩ => ⟨S400x10000, .f32⟩
  | .local _ .vmem, ⟨11, _⟩ => ⟨S400x10000, .f32⟩
  | .local _ .vmem, ⟨12, _⟩ => ⟨S10000x16, .f32⟩
  | .local _ .vmem, ⟨13, _⟩ => ⟨S1x16, .f32⟩
  | .local _ .vmem, ⟨14, _⟩ => ⟨S400x16, .f32⟩
  | .local _ .vmem, ⟨15, _⟩ => ⟨S400x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S32_S1x32 : S32.ShapeCasts S1x32
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  inb_S400x10000_S400x10000_0_0 : ∀ a, (![0, 0] : Fin 2 → Nat) a + S400x10000.size a ≤ S400x10000.size a
  h_S400x10000 : 0 < S400x10000.numel
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S400x32 : S1x32.Broadcasts S400x32
  inb_S32x16_S32x16_0_0 : ∀ a, (![0, 0] : Fin 2 → Nat) a + S32x16.size a ≤ S32x16.size a
  h_S32x16 : 0 < S32x16.numel
  inb_S400x16_S400x16_0_0 : ∀ a, (![0, 0] : Fin 2 → Nat) a + S400x16.size a ≤ S400x16.size a
  h_S400x16 : 0 < S400x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  dot_S400x32_S32x16_S400x16_1_0_0_1_n_n_wf : DotDims.WF S400x32 S32x16 S400x16 [1] [0] [0] [1] [] []
  dot_S400x10000_S10000x16_S400x16_1_0_0_1_n_n_wf : DotDims.WF S400x10000 S10000x16 S400x16 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S10000x32.size a
  hwx1_1 : ∀ i : grid1.Coords, EltTy.bits .f32 = 32 ∨ (Rect.block (s := S10000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x16.size a ≤ S32x16.size a
  hwx1_3 : ∀ i : grid1.Coords, EltTy.bits .f32 = 32 ∨ (Rect.block (s := S32x16) S32x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x16.size a ≤ S10000x16.size a
  hwx1_4 : ∀ i : grid1.Coords, EltTy.bits .f32 = 32 ∨ (Rect.block (s := S10000x16) S400x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S10000x16.size a
  hwx2_1 : ∀ i : grid2.Coords, EltTy.bits .f32 = 32 ∨ (Rect.block (s := S10000x16) S10000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x16.size a ≤ S10000x16.size a
  hwx2_3 : ∀ i : grid2.Coords, EltTy.bits .f32 = 32 ∨ (Rect.block (s := S10000x16) S400x16.size (cc2_transform_3 i) (hinb2_3 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x16_S400x16_1_0_0_1_n_n : DotDims S400x32 S32x16 S400x16 where
  lhsContracting := [1]
  rhsContracting := [0]
  lhsNonContracting := [0]
  rhsNonContracting := [1]
  lhsBatch := []
  rhsBatch := []
  wf := dot_S400x32_S32x16_S400x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v2) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S32x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S400x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S400x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S10000x32 : Shape := ⟨2, ![10000, 32]⟩
abbrev S1x32 : Shape := ⟨2, ![1, 32]⟩
abbrev S_ : Shape := ⟨0, ![]⟩
abbrev S10000x16 : Shape := ⟨2, ![10000, 16]⟩
abbrev S1x16 : Shape := ⟨2, ![1, 16]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S10000x32, .f32⟩
  | .hbm, ⟨7, _⟩ => ⟨S10000x32, .f32⟩
  | .hbm, ⟨8, _⟩ => ⟨S1x32, .f32⟩
  | .hbm, ⟨9, _⟩ => ⟨S10000x32, .f32⟩
  | .hbm, ⟨10, _⟩ => ⟨S10000x32, .f32⟩
  | .hbm, ⟨11, _⟩ => ⟨S_, .f32⟩
  | .hbm, ⟨12, _⟩ => ⟨S10000x32, .f32⟩
  | .hbm, ⟨13, _⟩ => ⟨S10000x32, .f32⟩
  | .hbm, ⟨14, _⟩ => ⟨S10000x16, .f32⟩
  | .hbm, ⟨15, _⟩ => ⟨S10000x16, .f32⟩
  | .hbm, ⟨16, _⟩ => ⟨S1x16, .f32⟩
  | .hbm, ⟨17, _⟩ => ⟨S10000x16, .f32⟩
  | .hbm, ⟨18, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x16_S10000x16_1_0_0_1_n_n_wf : DotDims.WF S10000x32 S32x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.Spec.lean ====
/-
  The mathematics both programs compute, stated once over whole arrays of extended reals.

  A two-layer graph convolution with a dense adjacency matrix: with `A` the n × n adjacency, `X` the n × f features,
  `W₁` (f × h), `b₁` (h), `W₂` (h × c), `b₂` (c),
      out = A · (relu (A · (X · W₁) + b₁) · W₂) + b₂,
  every product the plain matrix product (entry (r, c) the sum over the contracted coordinate of the factors'
  products), a bias added to every row, relu the maximum with zero. On the extended reals sums and products are
  those of `EReal`; nothing here needs the entries to be finite, because the two programs are compared sum by sum.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with `r` rows and `c` columns, as an array of shape [r, c]. -/
abbrev Mat (r c : Nat) : Type := FVec Ideal (⟨2, ![r, c]⟩ : Shape) .f32
/-- A vector of extended reals of length `n`, as an array of shape [n]. -/
abbrev Row (n : Nat) : Type := FVec Ideal (⟨1, ![n]⟩ : Shape) .f32

/-- The matrix product: entry (r, c) is the sum over `k` of `a (r, k) · b (k, c)`. -/
def mm {R K C : Nat} (a : Mat R K) (b : Mat K C) : Mat R C :=
  fun i => ∑ k : Fin K, a (ix2 (i 0) k) * b (ix2 k (i 1))

/-- A bias vector added to every row. -/
def addRow {R C : Nat} (a : Mat R C) (b : Row C) : Mat R C :=
  fun i => a i + b (ix1 (i 1))

/-- relu, entry by entry: the maximum with zero. -/
def relu {R C : Nat} (a : Mat R C) : Mat R C :=
  fun i => max (a i) 0

/-- The first layer's hidden features pushed through the second weight: `relu (A · S + b₁) · W₂`. -/
def layer1 {N H C : Nat} (adj : Mat N N) (s : Mat N H) (b1 : Row H) (w2 : Mat H C) : Mat N C :=
  mm (relu (addRow (mm adj s) b1)) w2

/-- The second layer: `A · T + b₂`. -/
def layer2 {N C : Nat} (adj : Mat N N) (t : Mat N C) (b2 : Row C) : Mat N C :=
  addRow (mm adj t) b2

/-- The whole network. -/
def gcn {N Fe H C : Nat} (x : Mat N Fe) (adj : Mat N N) (w1 : Mat Fe H) (b1 : Row H) (w2 : Mat H C) (b2 : Row C) : Mat N C :=
  layer2 adj (layer1 adj (mm x w1) b1 w2) b2

theorem mm_apply {R K C : Nat} (a : Mat R K) (b : Mat K C) (r : Fin R) (c : Fin C) :
    mm a b (ix2 r c) = ∑ k : Fin K, a (ix2 r k) * b (ix2 k c) := rfl

/-- An entry of the first layer, written out: the sum over the hidden coordinate of the rectified row sum times the weight. -/
theorem layer1_apply {N H C : Nat} (adj : Mat N N) (s : Mat N H) (b1 : Row H) (w2 : Mat H C) (r : Fin N) (c : Fin C) :
    layer1 adj s b1 w2 (ix2 r c)
      = ∑ h : Fin H, max ((∑ k : Fin N, adj (ix2 r k) * s (ix2 k h)) + b1 (ix1 h)) 0 * w2 (ix2 h c) := rfl

/-- An entry of the second layer, written out. -/
theorem layer2_apply {N C : Nat} (adj : Mat N N) (t : Mat N C) (b2 : Row C) (r : Fin N) (c : Fin C) :
    layer2 adj t b2 (ix2 r c) = (∑ j : Fin N, adj (ix2 r j) * t (ix2 j c)) + b2 (ix1 c) := rfl

end Cert.Spec

end
-- ==== Proof.KernelPay.lean ====
/-
  What each kernel body stores, read at one entry of its block, at the ideal values.

  Every `tpu.matmul` here contracts the left operand's second axis with the right operand's first and accumulates
  into the zero splat, so its entry (r, c) is the plain sum over `k` of `a (r, k) · b (k, c)`. The first kernel stores
  that product. The second stores, at (p, c), the sum over the hidden coordinate `h` of
  `max (Σₖ a (p, k) · s (k, h) + b (0, h)) 0 · w (h, c)` (the bias block is one row, broadcast over the block's rows).
  The third stores `Σⱼ a (p, j) · t (j, c) + b (0, c)`.
-/
import proofs.«172649_g47330539602753_cont_8to1_c_31_2_alg».proof.Proof.Gen.KernelIdeal.Skeleton
import proofs.«172649_g47330539602753_cont_8to1_c_31_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen
open Idealize.ShloMosaic Idealize.ShloMosaic.TcCoe Idealize.ShloMosaic.ValueIdx

/-! ### the feature product X · W₁ (one whole block): [10000, 128] × [128, 32] -/

theorem lhs_D0_0 (i : S10000x32.Idx) (q : dot_S10000x128_S128x32_S10000x32_1_0_0_1_n_n.contr.Idx) :
    (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
theorem lhs_D0_1 (i : S10000x32.Idx) (q : dot_S10000x128_S128x32_S10000x32_1_0_0_1_n_n.contr.Idx) :
    (dot_S10000x128_S128x32_S10000x32_1_0_0_1_n_n.lhsIdx i q 1).val = (q ⟨0, by decide⟩).val :=
  dot_S10000x128_S128x32_S10000x32_1_0_0_1_n_n.lhsIdx_val_of_single rfl i q
theorem rhs_D0_0 (i : S10000x32.Idx) (q : dot_S10000x128_S128x32_S10000x32_1_0_0_1_n_n.contr.Idx) :
    (dot_S10000x128_S128x32_S10000x32_1_0_0_1_n_n.rhsIdx i q 0).val = (q ⟨0, by decide⟩).val :=
  dot_S10000x128_S128x32_S10000x32_1_0_0_1_n_n.rhsIdx_val_of_single rfl i q
theorem rhs_D0_1 (i : S10000x32.Idx) (q : dot_S10000x128_S128x32_S10000x32_1_0_0_1_n_n.contr.Idx) :
    (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- Into the zero accumulator the product at (r, c) is the sum over the contracted coordinate. -/
theorem matmul_D0 (a : FVec Ideal S10000x128 .f32) (b : FVec Ideal S128x32 .f32) (r : Fin 10000) (c : Fin 32) :
    (matmul dot_S10000x128_S128x32_S10000x32_1_0_0_1_n_n none a b (constant S10000x32 .f32 0x00000000#32) : FVec Ideal S10000x32 .f32) (ix2 r c)
      = ∑ k : Fin 128, a (ix2 r k) * b (ix2 k c) := by
  simp only [matmul]
  rw [Ideal.matmul_constant_zero_apply, ← Equiv.sum_comp (contrEquiv1 dot_S10000x128_S128x32_S10000x32_1_0_0_1_n_n 128 rfl rfl).symm]
  refine Finset.sum_congr rfl fun k _ => ?_
  have hk := contrEquiv1_symm_val dot_S10000x128_S128x32_S10000x32_1_0_0_1_n_n 128 rfl rfl k
  have el : dot_S10000x128_S128x32_S10000x32_1_0_0_1_n_n.lhsIdx (ix2 r c) ((contrEquiv1 dot_S10000x128_S128x32_S10000x32_1_0_0_1_n_n 128 rfl rfl).symm k) = ix2 r k := funext fun ax => Fin.ext (by
    match ax with
    | ⟨0, _⟩ => exact lhs_D0_0 _ _
    | ⟨1, _⟩ => exact (lhs_D0_1 _ _).trans hk)
  have er : dot_S10000x128_S128x32_S10000x32_1_0_0_1_n_n.rhsIdx (ix2 r c) ((contrEquiv1 dot_S10000x128_S128x32_S10000x32_1_0_0_1_n_n 128 rfl rfl).symm k) = ix2 k c := funext fun ax => Fin.ext (by
    match ax with
    | ⟨0, _⟩ => exact (rhs_D0_0 _ _).trans hk
    | ⟨1, _⟩ => exact rhs_D0_1 _ _)
  rw [el, er]

/-! ### a row block of A times S: [400, 10000] × [10000, 32] -/

theorem lhs_D1_0 (i : S400x32.Idx) (q : dot_S400x10000_S10000x32_S400x32_1_0_0_1_n_n.contr.Idx) :
    (dot_S400x10000_S10000x32_S400x32_1_0_0_1_n_n.lhsIdx i q 0).val = (i 0).val := by
  unfold DotDims.lhsIdx
  rw [dif_neg (show ¬(0 : Fin S400x10000.rank) ∈ dot_S400x10000_S10000x32_S400x32_1_0_0_1_n_n.lhsBatch by decide), dif_pos (show (0 : Fin S400x10000.rank) ∈ dot_S400x10000_S10000x32_S400x32_1_0_0_1_n_n.lhsNonContracting by decide)]
  rfl
theorem lhs_D1_1 (i : S400x32.Idx) (q : dot_S400x10000_S10000x32_S400x32_1_0_0_1_n_n.contr.Idx) :
    (dot_S400x10000_S10000x32_S400x32_1_0_0_1_n_n.lhsIdx i q 1).val = (q ⟨0, by decide⟩).val :=
  dot_S400x10000_S10000x32_S400x32_1_0_0_1_n_n.lhsIdx_val_of_single rfl i q
theorem rhs_D1_0 (i : S400x32.Idx) (q : dot_S400x10000_S10000x32_S400x32_1_0_0_1_n_n.contr.Idx) :
    (dot_S400x10000_S10000x32_S400x32_1_0_0_1_n_n.rhsIdx i q 0).val = (q ⟨0, by decide⟩).val :=
  dot_S400x10000_S10000x32_S400x32_1_0_0_1_n_n.rhsIdx_val_of_single rfl i q
theorem rhs_D1_1 (i : S400x32.Idx) (q : dot_S400x10000_S10000x32_S400x32_1_0_0_1_n_n.contr.Idx) :
    (dot_S400x10000_S10000x32_S400x32_1_0_0_1_n_n.rhsIdx i q 1).val = (i 1).val := by
  unfold DotDims.rhsIdx
  rw [dif_neg (show ¬(1 : Fin S10000x32.rank) ∈ dot_S400x10000_S10000x32_S400x32_1_0_0_1_n_n.rhsBatch by decide), dif_pos (show (1 : Fin S10000x32.rank) ∈ dot_S400x10000_S10000x32_S400x32_1_0_0_1_n_n.rhsNonContracting by decide)]
  rfl

/-- Into the zero accumulator the product at (r, c) is the sum over the contracted coordinate. -/
theorem matmul_D1 (a : FVec Ideal S400x10000 .f32) (b : FVec Ideal S10000x32 .f32) (r : Fin 400) (c : Fin 32) :
    (matmul dot_S400x10000_S10000x32_S400x32_1_0_0_1_n_n none a b (constant S400x32 .f32 0x00000000#32) : FVec Ideal S400x32 .f32) (ix2 r c)
      = ∑ k : Fin 10000, a (ix2 r k) * b (ix2 k c) := by
  simp only [matmul]
  rw [Ideal.matmul_constant_zero_apply, ← Equiv.sum_comp (contrEquiv1 dot_S400x10000_S10000x32_S400x32_1_0_0_1_n_n 10000 rfl rfl).symm]
  refine Finset.sum_congr rfl fun k _ => ?_
  have hk := contrEquiv1_symm_val dot_S400x10000_S10000x32_S400x32_1_0_0_1_n_n 10000 rfl rfl k
  have el : dot_S400x10000_S10000x32_S400x32_1_0_0_1_n_n.lhsIdx (ix2 r c) ((contrEquiv1 dot_S400x10000_S10000x32_S400x32_1_0_0_1_n_n 10000 rfl rfl).symm k) = ix2 r k := funext fun ax => Fin.ext (by
    match ax with
    | ⟨0, _⟩ => exact lhs_D1_0 _ _
    | ⟨1, _⟩ => exact (lhs_D1_1 _ _).trans hk)
  have er : dot_S400x10000_S10000x32_S400x32_1_0_0_1_n_n.rhsIdx (ix2 r c) ((contrEquiv1 dot_S400x10000_S10000x32_S400x32_1_0_0_1_n_n 10000 rfl rfl).symm k) = ix2 k c := funext fun ax => Fin.ext (by
    match ax with
    | ⟨0, _⟩ => exact (rhs_D1_0 _ _).trans hk
    | ⟨1, _⟩ => exact rhs_D1_1 _ _)
  rw [el, er]

/-! ### the rectified rows times W₂: [400, 32] × [32, 16] -/

theorem lhs_D2_0 (i : S400x16.Idx) (q : dot_S400x32_S32x16_S400x16_1_0_0_1_n_n.contr.Idx) :
    (dot_S400x32_S32x16_S400x16_1_0_0_1_n_n.lhsIdx i q 0).val = (i 0).val := by
  unfold DotDims.lhsIdx
  rw [dif_neg (show ¬(0 : Fin S400x32.rank) ∈ dot_S400x32_S32x16_S400x16_1_0_0_1_n_n.lhsBatch by decide), dif_pos (show (0 : Fin S400x32.rank) ∈ dot_S400x32_S32x16_S400x16_1_0_0_1_n_n.lhsNonContracting by decide)]
  rfl
theorem lhs_D2_1 (i : S400x16.Idx) (q : dot_S400x32_S32x16_S400x16_1_0_0_1_n_n.contr.Idx) :
    (dot_S400x32_S32x16_S400x16_1_0_0_1_n_n.lhsIdx i q 1).val = (q ⟨0, by decide⟩).val :=
  dot_S400x32_S32x16_S400x16_1_0_0_1_n_n.lhsIdx_val_of_single rfl i q
theorem rhs_D2_0 (i : S400x16.Idx) (q : dot_S400x32_S32x16_S400x16_1_0_0_1_n_n.contr.Idx) :
    (dot_S400x32_S32x16_S400x16_1_0_0_1_n_n.rhsIdx i q 0).val = (q ⟨0, by decide⟩).val :=
  dot_S400x32_S32x16_S400x16_1_0_0_1_n_n.rhsIdx_val_of_single rfl i q
theorem rhs_D2_1 (i : S400x16.Idx) (q : dot_S400x32_S32x16_S400x16_1_0_0_1_n_n.contr.Idx) :
    (dot_S400x32_S32x16_S400x16_1_0_0_1_n_n.rhsIdx i q 1).val = (i 1).val := by
  unfold DotDims.rhsIdx
  rw [dif_neg (show ¬(1 : Fin S32x16.rank) ∈ dot_S400x32_S32x16_S400x16_1_0_0_1_n_n.rhsBatch by decide), dif_pos (show (1 : Fin S32x16.rank) ∈ dot_S400x32_S32x16_S400x16_1_0_0_1_n_n.rhsNonContracting by decide)]
  rfl

/-- Into the zero accumulator the product at (r, c) is the sum over the contracted coordinate. -/
theorem matmul_D2 (a : FVec Ideal S400x32 .f32) (b : FVec Ideal S32x16 .f32) (r : Fin 400) (c : Fin 16) :
    (matmul dot_S400x32_S32x16_S400x16_1_0_0_1_n_n none a b (constant S400x16 .f32 0x00000000#32) : FVec Ideal S400x16 .f32) (ix2 r c)
      = ∑ k : Fin 32, a (ix2 r k) * b (ix2 k c) := by
  simp only [matmul]
  rw [Ideal.matmul_constant_zero_apply, ← Equiv.sum_comp (contrEquiv1 dot_S400x32_S32x16_S400x16_1_0_0_1_n_n 32 rfl rfl).symm]
  refine Finset.sum_congr rfl fun k _ => ?_
  have hk := contrEquiv1_symm_val dot_S400x32_S32x16_S400x16_1_0_0_1_n_n 32 rfl rfl k
  have el : dot_S400x32_S32x16_S400x16_1_0_0_1_n_n.lhsIdx (ix2 r c) ((contrEquiv1 dot_S400x32_S32x16_S400x16_1_0_0_1_n_n 32 rfl rfl).symm k) = ix2 r k := funext fun ax => Fin.ext (by
    match ax with
    | ⟨0, _⟩ => exact lhs_D2_0 _ _
    | ⟨1, _⟩ => exact (lhs_D2_1 _ _).trans hk)
  have er : dot_S400x32_S32x16_S400x16_1_0_0_1_n_n.rhsIdx (ix2 r c) ((contrEquiv1 dot_S400x32_S32x16_S400x16_1_0_0_1_n_n 32 rfl rfl).symm k) = ix2 k c := funext fun ax => Fin.ext (by
    match ax with
    | ⟨0, _⟩ => exact (rhs_D2_0 _ _).trans hk
    | ⟨1, _⟩ => exact rhs_D2_1 _ _)
  rw [el, er]

/-! ### a row block of A times T: [400, 10000] × [10000, 16] -/

theorem lhs_D3_0 (i : S400x16.Idx) (q : dot_S400x10000_S10000x16_S400x16_1_0_0_1_n_n.contr.Idx) :
    (dot_S400x10000_S10000x16_S400x16_1_0_0_1_n_n.lhsIdx i q 0).val = (i 0).val := by
  unfold DotDims.lhsIdx
  rw [dif_neg (show ¬(0 : Fin S400x10000.rank) ∈ dot_S400x10000_S10000x16_S400x16_1_0_0_1_n_n.lhsBatch by decide), dif_pos (show (0 : Fin S400x10000.rank) ∈ dot_S400x10000_S10000x16_S400x16_1_0_0_1_n_n.lhsNonContracting by decide)]
  rfl
theorem lhs_D3_1 (i : S400x16.Idx) (q : dot_S400x10000_S10000x16_S400x16_1_0_0_1_n_n.contr.Idx) :
    (dot_S400x10000_S10000x16_S400x16_1_0_0_1_n_n.lhsIdx i q 1).val = (q ⟨0, by decide⟩).val :=
  dot_S400x10000_S10000x16_S400x16_1_0_0_1_n_n.lhsIdx_val_of_single rfl i q
theorem rhs_D3_0 (i : S400x16.Idx) (q : dot_S400x10000_S10000x16_S400x16_1_0_0_1_n_n.contr.Idx) :
    (dot_S400x10000_S10000x16_S400x16_1_0_0_1_n_n.rhsIdx i q 0).val = (q ⟨0, by decide⟩).val :=
  dot_S400x10000_S10000x16_S400x16_1_0_0_1_n_n.rhsIdx_val_of_single rfl i q
theorem rhs_D3_1 (i : S400x16.Idx) (q : dot_S400x10000_S10000x16_S400x16_1_0_0_1_n_n.contr.Idx) :
    (dot_S400x10000_S10000x16_S400x16_1_0_0_1_n_n.rhsIdx i q 1).val = (i 1).val := by
  unfold DotDims.rhsIdx
  rw [dif_neg (show ¬(1 : Fin S10000x16.rank) ∈ dot_S400x10000_S10000x16_S400x16_1_0_0_1_n_n.rhsBatch by decide), dif_pos (show (1 : Fin S10000x16.rank) ∈ dot_S400x10000_S10000x16_S400x16_1_0_0_1_n_n.rhsNonContracting by decide)]
  rfl

/-- Into the zero accumulator the product at (r, c) is the sum over the contracted coordinate. -/
theorem matmul_D3 (a : FVec Ideal S400x10000 .f32) (b : FVec Ideal S10000x16 .f32) (r : Fin 400) (c : Fin 16) :
    (matmul dot_S400x10000_S10000x16_S400x16_1_0_0_1_n_n none a b (constant S400x16 .f32 0x00000000#32) : FVec Ideal S400x16 .f32) (ix2 r c)
      = ∑ k : Fin 10000, a (ix2 r k) * b (ix2 k c) := by
  simp only [matmul]
  rw [Ideal.matmul_constant_zero_apply, ← Equiv.sum_comp (contrEquiv1 dot_S400x10000_S10000x16_S400x16_1_0_0_1_n_n 10000 rfl rfl).symm]
  refine Finset.sum_congr rfl fun k _ => ?_
  have hk := contrEquiv1_symm_val dot_S400x10000_S10000x16_S400x16_1_0_0_1_n_n 10000 rfl rfl k
  have el : dot_S400x10000_S10000x16_S400x16_1_0_0_1_n_n.lhsIdx (ix2 r c) ((contrEquiv1 dot_S400x10000_S10000x16_S400x16_1_0_0_1_n_n 10000 rfl rfl).symm k) = ix2 r k := funext fun ax => Fin.ext (by
    match ax with
    | ⟨0, _⟩ => exact lhs_D3_0 _ _
    | ⟨1, _⟩ => exact (lhs_D3_1 _ _).trans hk)
  have er : dot_S400x10000_S10000x16_S400x16_1_0_0_1_n_n.rhsIdx (ix2 r c) ((contrEquiv1 dot_S400x10000_S10000x16_S400x16_1_0_0_1_n_n 10000 rfl rfl).symm k) = ix2 k c := funext fun ax => Fin.ext (by
    match ax with
    | ⟨0, _⟩ => exact (rhs_D3_0 _ _).trans hk
    | ⟨1, _⟩ => exact rhs_D3_1 _ _)
  rw [el, er]

/-! ## The three payloads at an entry -/

/-- The first kernel's stored value: X · W₁ at (r, h). -/
theorem pay0_apply (x : Vec Ideal S10000x128 .f32) (w : Vec Ideal S128x32 .f32) (r : Fin 10000) (h : Fin 32) :
    (k0_pay1 x w : FVec Ideal S10000x32 .f32) (ix2 r h) = ∑ f : Fin 128, x (ix2 r f) * w (ix2 f h) := by
  unfold k0_pay1
  exact matmul_D0 x w r h

/-- The second kernel's stored value at (p, c). -/
theorem pay1_apply (a : Vec Ideal S400x10000 .f32) (s : Vec Ideal S10000x32 .f32) (b : Vec Ideal S1x32 .f32) (w : Vec Ideal S32x16 .f32)
    (p : Fin 400) (c : Fin 16) :
    (k1_pay1 a s b w : FVec Ideal S400x16 .f32) (ix2 p c)
      = ∑ h : Fin 32, max ((∑ k : Fin 10000, a (ix2 p k) * s (ix2 k h)) + b (ix2 (0 : Fin 1) h)) 0 * w (ix2 h c) := by
  unfold k1_pay1
  rw [matmul_D2]
  refine Finset.sum_congr rfl fun h _ => ?_
  rw [shapeCast_self, shapeCast_self]
  show max ((matmul dot_S400x10000_S10000x32_S400x32_1_0_0_1_n_n none a s (constant S400x32 .f32 0x00000000#32) : FVec Ideal S400x32 .f32) (ix2 p h)
        + broadcastTo S400x32 b broadcasts_S1x32_S400x32 (ix2 p h)) (Ideal.ofBits .f32 0x00000000#32) * w (ix2 h c) = _
  rw [matmul_D1, broadcastTo_1b_ab_apply, Ideal.ofBits_zero_f32]

/-- The third kernel's stored value at (p, c). -/
theorem pay2_apply (a : Vec Ideal S400x10000 .f32) (t : Vec Ideal S10000x16 .f32) (b : Vec Ideal S1x16 .f32) (p : Fin 400) (c : Fin 16) :
    (k2_pay1 a t b : FVec Ideal S400x16 .f32) (ix2 p c)
      = (∑ j : Fin 10000, a (ix2 p j) * t (ix2 j c)) + b (ix2 (0 : Fin 1) c) := by
  unfold k2_pay1
  rw [shapeCast_self, shapeCast_self]
  show (matmul dot_S400x10000_S10000x16_S400x16_1_0_0_1_n_n none a t (constant S400x16 .f32 0x00000000#32) : FVec Ideal S400x16 .f32) (ix2 p c)
        + broadcastTo S400x16 b broadcasts_S1x16_S400x16 (ix2 p c) = _
  rw [matmul_D3, broadcastTo_1b_ab_apply]

/-! ## A stored block is the matching rows of the whole-array function

  The row block at grid position `t` holds rows 400·t … 400·t + 399 of the adjacency; the other operands are whole
  arrays. An entry (p, c) of what the body stores is therefore the entry (400·t + p, c) of the layer's whole-array
  function: a matrix product's row depends only on the same row of its left factor. -/

open Cert.Spec

/-- The first kernel's one block is the whole product. -/
theorem block0_eq (x : Mat 10000 128) (w : Mat 128 32) (x' : FVec Ideal S10000x128 .f32) (w' : FVec Ideal S128x32 .f32)
    (hx : x' = x) (hw : w' = w) (y i : S10000x32.Idx) (hi0 : (i 0).val = (y 0).val) (hi1 : (i 1).val = (y 1).val) :
    (k0_pay1 x' w' : FVec Ideal S10000x32 .f32) y = mm x w i := by
  subst hx hw
  obtain ⟨r, h, rfl⟩ : ∃ (r : Fin 10000) (h : Fin 32), y = ix2 r h := ⟨y 0, y 1, eq_ix2 y⟩
  obtain ⟨r', h', rfl⟩ : ∃ (r' : Fin 10000) (h' : Fin 32), i = ix2 r' h' := ⟨i 0, i 1, eq_ix2 i⟩
  obtain rfl : r' = r := Fin.ext hi0
  obtain rfl : h' = h := Fin.ext hi1
  rw [pay0_apply, mm_apply]

/-- A block of the second kernel's result is the matching rows of `layer1`. -/
theorem block1_eq (adj : Mat 10000 10000) (s : Mat 10000 32) (bv : FVec Ideal S1x32 .f32) (w : Mat 32 16)
    (a : FVec Ideal S400x10000 .f32) (s' : FVec Ideal S10000x32 .f32) (bv' : FVec Ideal S1x32 .f32) (w' : FVec Ideal S32x16 .f32)
    (t : Nat) (ht : t < 25)
    (ha : ∀ (p : Fin 400) (k : Fin 10000), a (ix2 p k) = adj (ix2 (⟨400 * t + p.val, by omega⟩ : Fin 10000) k))
    (hs : s' = s) (hb : bv' = bv) (hw : w' = w)
    (y : S400x16.Idx) (i : S10000x16.Idx) (hi0 : (i 0).val = 400 * t + (y 0).val) (hi1 : (i 1).val = (y 1).val) :
    (k1_pay1 a s' bv' w' : FVec Ideal S400x16 .f32) y = layer1 adj s (fun q => bv (ix2 (0 : Fin 1) (q 0))) w i := by
  subst hs hb hw
  obtain ⟨p, c, rfl⟩ : ∃ (p : Fin 400) (c : Fin 16), y = ix2 p c := ⟨y 0, y 1, eq_ix2 y⟩
  have hlt : 400 * t + p.val < 10000 := by have := p.isLt; omega
  obtain ⟨r, c', rfl⟩ : ∃ (r : Fin 10000) (c' : Fin 16), i = ix2 r c' := ⟨i 0, i 1, eq_ix2 i⟩
  obtain rfl : r = ⟨400 * t + p.val, hlt⟩ := Fin.ext hi0
  obtain rfl : c' = c := Fin.ext hi1
  rw [pay1_apply, layer1_apply]
  refine Finset.sum_congr rfl fun h _ => ?_
  simp only [ha]

/-- A block of the third kernel's result is the matching rows of `layer2`. -/
theorem block2_eq (adj : Mat 10000 10000) (u : Mat 10000 16) (bv : FVec Ideal S1x16 .f32)
    (a : FVec Ideal S400x10000 .f32) (u' : FVec Ideal S10000x16 .f32) (bv' : FVec Ideal S1x16 .f32)
    (t : Nat) (ht : t < 25)
    (ha : ∀ (p : Fin 400) (k : Fin 10000), a (ix2 p k) = adj (ix2 (⟨400 * t + p.val, by omega⟩ : Fin 10000) k))
    (hu : u' = u) (hb : bv' = bv)
    (y : S400x16.Idx) (i : S10000x16.Idx) (hi0 : (i 0).val = 400 * t + (y 0).val) (hi1 : (i 1).val = (y 1).val) :
    (k2_pay1 a u' bv' : FVec Ideal S400x16 .f32) y = layer2 adj u (fun q => bv (ix2 (0 : Fin 1) (q 0))) i := by
  subst hu hb
  obtain ⟨p, c, rfl⟩ : ∃ (p : Fin 400) (c : Fin 16), y = ix2 p c := ⟨y 0, y 1, eq_ix2 y⟩
  have hlt : 400 * t + p.val < 10000 := by have := p.isLt; omega
  obtain ⟨r, c', rfl⟩ : ∃ (r : Fin 10000) (c' : Fin 16), i = ix2 r c' := ⟨i 0, i 1, eq_ix2 i⟩
  obtain rfl : r = ⟨400 * t + p.val, hlt⟩ := Fin.ext hi0
  obtain rfl : c' = c := Fin.ext hi1
  rw [pay2_apply, layer2_apply]
  simp only [ha]

end Cert.KernelIdeal.Pay

end
-- ==== Proof.KernelValue.lean ====
/-
  What each of the three regions leaves in its result array, as one whole-array function of the buffer contents the
  region finds on entry.

  A region's result array is written back block by block; the blocks tile the array (one block for the first region,
  25 row blocks of 400 rows for the other two), so the array ends holding the function whose restriction to every
  block is what that block's grid point stored. An input window's block at point `t` is its array read through the
  block's rectangle: rows 400·t … for the adjacency, the whole array for every other operand.
-/
import proofs.«172649_g47330539602753_cont_8to1_c_31_2_alg».proof.Proof.Gen.KernelIdeal.Frame
import proofs.«172649_g47330539602753_cont_8to1_c_31_2_alg».proof.Proof.KernelPay
import Idealize.ShloMosaic.Lib.Pipeline.Value
import Idealize.ShloMosaic.Lib.Tactic

set_option maxRecDepth 16384

noncomputable section

open scoped BigOperators

namespace Cert.KernelIdeal.Val

open Cert.KernelIdeal Cert.KernelIdeal.Gen Cert.KernelIdeal.Pay Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The index maps, decided over the grids -/

theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-! ## Region 0: S = X · W₁ -/

/-- The features' one block is the whole array. -/
theorem blk0_0 (c : Dev nD) (t : Fin cfg0.N) : (iblk0 V c 0 t : Vec Ideal S10000x128 .f32) = V c main_arg0 := by
  obtain ⟨e0, e1, -⟩ := idx0 t
  funext y
  unfold iblk0
  rw [View.read_apply]
  show V c main_arg0 _ = V c main_arg0 _
  congr 1
  funext a
  apply Fin.ext
  match a with
  | ⟨0, _⟩ => show win0_0.index t (0 : Fin 2) * 10000 + 1 * (y 0).val = (y 0).val; rw [e0]; omega
  | ⟨1, _⟩ => show win0_0.index t (1 : Fin 2) * 128 + 1 * (y 1).val = (y 1).val; rw [e1]; omega

/-- The first weight's one block is the whole array. -/
theorem blk0_1 (c : Dev nD) (t : Fin cfg0.N) : (iblk0 V c 1 t : Vec Ideal S128x32 .f32) = V c main_arg2 := by
  obtain ⟨-, -, e0, e1, -⟩ := idx0 t
  funext y
  unfold iblk0
  rw [View.read_apply]
  show V c main_arg2 _ = V c main_arg2 _
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 32 + 1 * (y 1).val = (y 1).val; rw [e1]; omega

/-- What the one point writes back is the product read through the block. -/
theorem flushed0 (c : Dev nD) (t : Fin cfg0.N) :
    (dat0 V c).flushed 2 t = ((cfg0.win 2).blk t).view.read (Elt Ideal) (mm (V c main_arg0) (V c main_arg2)) := by
  obtain ⟨-, -, -, -, e0, e1⟩ := idx0 t
  show (cfg0.win 2).cut (grid0.coords t) ((dat0 V c).after 2 t) = _
  rw [after0_2]
  unfold out0_2
  rw [View.canon_unit_zero hz]
  simp only [View.ld_unit_zero (S := S10000x128) hz, View.ld_unit_zero (S := S128x32) hz]
  funext j
  rw [View.read_apply]
  refine block0_eq (V c main_arg0) (V c main_arg2) (iblk0 V c 0 t) (iblk0 V c 1 t) (blk0_0 V c t) (blk0_1 V c t) j
    (((cfg0.win 2).blk t).view.emb j) ?_ ?_
  · show win0_2.index t (0 : Fin 2) * 10000 + 1 * (j 0).val = (j 0).val; rw [e0]; omega
  · show win0_2.index t (1 : Fin 2) * 32 + 1 * (j 1).val = (j 1).val; rw [e1]; omega

/-- The one block covers the array. -/
theorem cover0 (i : S10000x32.Idx) : ∃ t : Fin cfg0.N, (cfg0.win 2).flush t = true ∧ i ∈ ((cfg0.win 2).blk t).view.set := by
  have hi0 : (i 0).val < 10000 := (i 0).isLt
  have hi1 : (i 1).val < 32 := (i 1).isLt
  obtain ⟨-, -, -, -, e0, e1⟩ := idx0 t0_0
  refine ⟨t0_0, flush0_2 t0_0, ?_⟩
  show i ∈ ((View.whole main_v2).slice (win0_2.rect t0_0)).set
  rw [View.set_slice_whole, Rect.mem_set_unit]
  intro a
  match a with
  | ⟨0, _⟩ => show win0_2.index t0_0 (0 : Fin 2) * 10000 ≤ (i 0).val ∧ (i 0).val < win0_2.index t0_0 (0 : Fin 2) * 10000 + 10000; rw [e0]; omega
  | ⟨1, _⟩ => show win0_2.index t0_0 (1 : Fin 2) * 32 ≤ (i 1).val ∧ (i 1).val < win0_2.index t0_0 (1 : Fin 2) * 32 + 32; rw [e1]; omega

/-- After region 0 its result array holds X · W₁ of the arrays it found. -/
theorem final0 (c : Dev nD) : (dat0 V c).arrAt 2 cfg0.N = mm (V c main_arg0) (V c main_arg2) :=
  (dat0 V c).arrAt_eq_of_cover 2 (mm (V c main_arg0) (V c main_arg2)) (fun t _ => flushed0 V c t) cover0

/-! ## Region 1: T = relu (A · S + b₁) · W₂, row block by row block -/

/-- The adjacency's block at point `t` is its rows 400·t … 400·t + 399. -/
theorem blk1_0 (c : Dev nD) (t : Fin cfg1.N) (p : Fin 400) (q : Fin 10000) (hlt : 400 * t.val + p.val < 10000) :
    (iblk1 V c 0 t : Vec Ideal S400x10000 .f32) (ix2 p q) = (V c main_arg1 : Vec Ideal S10000x10000 .f32) (ix2 (⟨400 * t.val + p.val, hlt⟩ : Fin 10000) q) := by
  obtain ⟨e0, e1, -⟩ := idx1 t
  unfold iblk1
  rw [View.read_apply]
  show V c main_arg1 _ = V c main_arg1 _
  congr 1
  funext a
  apply Fin.ext
  match a with
  | ⟨0, _⟩ => show win1_0.index t (0 : Fin 2) * 400 + 1 * p.val = 400 * t.val + p.val; rw [e0]; omega
  | ⟨1, _⟩ => show win1_0.index t (1 : Fin 2) * 10000 + 1 * q.val = q.val; rw [e1]; omega

/-- The support's block is the whole array at every point. -/
theorem blk1_1 (c : Dev nD) (t : Fin cfg1.N) : (iblk1 V c 1 t : Vec Ideal S10000x32 .f32) = V c main_v2 := by
  obtain ⟨-, -, e0, e1, -⟩ := idx1 t
  funext y
  unfold iblk1
  rw [View.read_apply]
  show V c main_v2 _ = V c main_v2 _
  congr 1
  funext a
  apply Fin.ext
  match a with
  | ⟨0, _⟩ => show win1_1.index t (0 : Fin 2) * 10000 + 1 * (y 0).val = (y 0).val; rw [e0]; omega
  | ⟨1, _⟩ => show win1_1.index t (1 : Fin 2) * 32 + 1 * (y 1).val = (y 1).val; rw [e1]; omega

/-- The bias row's block is the whole array at every point. -/
theorem blk1_2 (c : Dev nD) (t : Fin cfg1.N) : (iblk1 V c 2 t : Vec Ideal S1x32 .f32) = V c main_v0 := by
  obtain ⟨-, -, -, -, e0, e1, -⟩ := idx1 t
  funext y
  unfold iblk1
  rw [View.read_apply]
  show V c main_v0 _ = V c main_v0 _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 32 + 1 * (y 1).val = (y 1).val; rw [e1]; omega

/-- The second weight's block is the whole array at every point. -/
theorem blk1_3 (c : Dev nD) (t : Fin cfg1.N) : (iblk1 V c 3 t : Vec Ideal S32x16 .f32) = V c main_arg4 := by
  obtain ⟨-, -, -, -, -, -, e0, e1, -⟩ := idx1 t
  funext y
  unfold iblk1
  rw [View.read_apply]
  show V c main_arg4 _ = V c main_arg4 _
  congr 1
  funext a
  apply Fin.ext
  match a with
  | ⟨0, _⟩ => show win1_3.index t (0 : Fin 2) * 32 + 1 * (y 0).val = (y 0).val; rw [e0]; omega
  | ⟨1, _⟩ => show win1_3.index t (1 : Fin 2) * 16 + 1 * (y 1).val = (y 1).val; rw [e1]; omega

/-- What point `t` writes back is the layer's whole-array function read through the point's block. -/
theorem flushed1 (c : Dev nD) (t : Fin cfg1.N) :
    (dat1 V c).flushed 4 t = ((cfg1.win 4).blk t).view.read (Elt Ideal) (layer1 (V c main_arg1) (V c main_v2) (fun q => (V c main_v0 : Vec Ideal S1x32 .f32) (ix2 (0 : Fin 1) (q 0))) (V c main_arg4)) := by
  obtain ⟨-, -, -, -, -, -, -, -, e0, e1⟩ := idx1 t
  have ht : t.val < 25 := lt_of_lt_of_eq t.isLt N_1
  show (cfg1.win 4).cut (grid1.coords t) ((dat1 V c).after 4 t) = _
  rw [after1_4]
  unfold out1_4
  rw [View.canon_unit_zero hz]
  simp only [View.ld_unit_zero (S := S400x10000) hz, View.ld_unit_zero (S := S10000x32) hz, View.ld_unit_zero (S := S1x32) hz, View.ld_unit_zero (S := S32x16) hz]
  funext j
  rw [View.read_apply]
  refine block1_eq (V c main_arg1) (V c main_v2) (V c main_v0) (V c main_arg4) (iblk1 V c 0 t) (iblk1 V c 1 t) (iblk1 V c 2 t) (iblk1 V c 3 t) t.val ht
    (fun p q => blk1_0 V c t p q (by have := p.isLt; omega)) (blk1_1 V c t) (blk1_2 V c t) (blk1_3 V c t) j
    (((cfg1.win 4).blk t).view.emb j) ?_ ?_
  · show win1_4.index t (0 : Fin 2) * 400 + 1 * (j 0).val = 400 * t.val + (j 0).val; rw [e0]; omega
  · show win1_4.index t (1 : Fin 2) * 16 + 1 * (j 1).val = (j 1).val; rw [e1]; omega

/-- The 25 row blocks cover the result array: row `r` lies in block `r / 400`. -/
theorem cover1 (i : S10000x16.Idx) : ∃ t : Fin cfg1.N, (cfg1.win 4).flush t = true ∧ i ∈ ((cfg1.win 4).blk t).view.set := by
  have hi0 : (i 0).val < 10000 := (i 0).isLt
  have hi1 : (i 1).val < 16 := (i 1).isLt
  obtain ⟨t, ht⟩ : ∃ t : Fin cfg1.N, t.val = (i 0).val / 400 :=
    ⟨⟨(i 0).val / 400, lt_of_lt_of_eq (by omega : (i 0).val / 400 < 25) N_1.symm⟩, rfl⟩
  obtain ⟨-, -, -, -, -, -, -, -, e0, e1⟩ := idx1 t
  refine ⟨t, flush1_4 t, ?_⟩
  show i ∈ ((View.whole main_v3).slice (win1_4.rect t)).set
  rw [View.set_slice_whole, Rect.mem_set_unit]
  intro a
  match a with
  | ⟨0, _⟩ => show win1_4.index t (0 : Fin 2) * 400 ≤ (i 0).val ∧ (i 0).val < win1_4.index t (0 : Fin 2) * 400 + 400; rw [e0, ht]; omega
  | ⟨1, _⟩ => show win1_4.index t (1 : Fin 2) * 16 ≤ (i 1).val ∧ (i 1).val < win1_4.index t (1 : Fin 2) * 16 + 16; rw [e1]; omega

/-- After region 1 its result array holds the layer's function of the arrays it found. -/
theorem final1 (c : Dev nD) : (dat1 V c).arrAt 4 cfg1.N = layer1 (V c main_arg1) (V c main_v2) (fun q => (V c main_v0 : Vec Ideal S1x32 .f32) (ix2 (0 : Fin 1) (q 0))) (V c main_arg4) :=
  (dat1 V c).arrAt_eq_of_cover 4 (layer1 (V c main_arg1) (V c main_v2) (fun q => (V c main_v0 : Vec Ideal S1x32 .f32) (ix2 (0 : Fin 1) (q 0))) (V c main_arg4)) (fun t _ => flushed1 V c t) cover1

/-! ## Region 2: out = A · T + b₂, row block by row block -/

/-- The adjacency's block at point `t` is its rows 400·t … 400·t + 399. -/
theorem blk2_0 (c : Dev nD) (t : Fin cfg2.N) (p : Fin 400) (q : Fin 10000) (hlt : 400 * t.val + p.val < 10000) :
    (iblk2 V c 0 t : Vec Ideal S400x10000 .f32) (ix2 p q) = (V c main_arg1 : Vec Ideal S10000x10000 .f32) (ix2 (⟨400 * t.val + p.val, hlt⟩ : Fin 10000) q) := by
  obtain ⟨e0, e1, -⟩ := idx2 t
  unfold iblk2
  rw [View.read_apply]
  show V c main_arg1 _ = V c main_arg1 _
  congr 1
  funext a
  apply Fin.ext
  match a with
  | ⟨0, _⟩ => show win2_0.index t (0 : Fin 2) * 400 + 1 * p.val = 400 * t.val + p.val; rw [e0]; omega
  | ⟨1, _⟩ => show win2_0.index t (1 : Fin 2) * 10000 + 1 * q.val = q.val; rw [e1]; omega

/-- The first layer's result is read whole at every point. -/
theorem blk2_1 (c : Dev nD) (t : Fin cfg2.N) : (iblk2 V c 1 t : Vec Ideal S10000x16 .f32) = V c main_v3 := by
  obtain ⟨-, -, e0, e1, -⟩ := idx2 t
  funext y
  unfold iblk2
  rw [View.read_apply]
  show V c main_v3 _ = V c main_v3 _
  congr 1
  funext a
  apply Fin.ext
  match a with
  | ⟨0, _⟩ => show win2_1.index t (0 : Fin 2) * 10000 + 1 * (y 0).val = (y 0).val; rw [e0]; omega
  | ⟨1, _⟩ => show win2_1.index t (1 : Fin 2) * 16 + 1 * (y 1).val = (y 1).val; rw [e1]; omega

/-- The bias row's block is the whole array at every point. -/
theorem blk2_2 (c : Dev nD) (t : Fin cfg2.N) : (iblk2 V c 2 t : Vec Ideal S1x16 .f32) = V c main_v1 := by
  obtain ⟨-, -, -, -, e0, e1, -⟩ := idx2 t
  funext y
  unfold iblk2
  rw [View.read_apply]
  show V c main_v1 _ = V c main_v1 _
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 16 + 1 * (y 1).val = (y 1).val; rw [e1]; omega

/-- What point `t` writes back is the layer's whole-array function read through the point's block. -/
theorem flushed2 (c : Dev nD) (t : Fin cfg2.N) :
    (dat2 V c).flushed 3 t = ((cfg2.win 3).blk t).view.read (Elt Ideal) (layer2 (V c main_arg1) (V c main_v3) (fun q => (V c main_v1 : Vec Ideal S1x16 .f32) (ix2 (0 : Fin 1) (q 0)))) := by
  obtain ⟨-, -, -, -, -, -, e0, e1⟩ := idx2 t
  have ht : t.val < 25 := lt_of_lt_of_eq t.isLt N_2
  show (cfg2.win 3).cut (grid2.coords t) ((dat2 V c).after 3 t) = _
  rw [after2_3]
  unfold out2_3
  rw [View.canon_unit_zero hz]
  simp only [View.ld_unit_zero (S := S400x10000) hz, View.ld_unit_zero (S := S10000x16) hz, View.ld_unit_zero (S := S1x16) hz]
  funext j
  rw [View.read_apply]
  refine block2_eq (V c main_arg1) (V c main_v3) (V c main_v1) (iblk2 V c 0 t) (iblk2 V c 1 t) (iblk2 V c 2 t) t.val ht
    (fun p q => blk2_0 V c t p q (by have := p.isLt; omega)) (blk2_1 V c t) (blk2_2 V c t) j
    (((cfg2.win 3).blk t).view.emb j) ?_ ?_
  · show win2_3.index t (0 : Fin 2) * 400 + 1 * (j 0).val = 400 * t.val + (j 0).val; rw [e0]; omega
  · show win2_3.index t (1 : Fin 2) * 16 + 1 * (j 1).val = (j 1).val; rw [e1]; omega

/-- The 25 row blocks cover the result array: row `r` lies in block `r / 400`. -/
theorem cover2 (i : S10000x16.Idx) : ∃ t : Fin cfg2.N, (cfg2.win 3).flush t = true ∧ i ∈ ((cfg2.win 3).blk t).view.set := by
  have hi0 : (i 0).val < 10000 := (i 0).isLt
  have hi1 : (i 1).val < 16 := (i 1).isLt
  obtain ⟨t, ht⟩ : ∃ t : Fin cfg2.N, t.val = (i 0).val / 400 :=
    ⟨⟨(i 0).val / 400, lt_of_lt_of_eq (by omega : (i 0).val / 400 < 25) N_2.symm⟩, rfl⟩
  obtain ⟨-, -, -, -, -, -, e0, e1⟩ := idx2 t
  refine ⟨t, flush2_3 t, ?_⟩
  show i ∈ ((View.whole main_v4).slice (win2_3.rect t)).set
  rw [View.set_slice_whole, Rect.mem_set_unit]
  intro a
  match a with
  | ⟨0, _⟩ => show win2_3.index t (0 : Fin 2) * 400 ≤ (i 0).val ∧ (i 0).val < win2_3.index t (0 : Fin 2) * 400 + 400; rw [e0, ht]; omega
  | ⟨1, _⟩ => show win2_3.index t (1 : Fin 2) * 16 ≤ (i 1).val ∧ (i 1).val < win2_3.index t (1 : Fin 2) * 16 + 16; rw [e1]; omega

/-- After region 2 its result array holds the layer's function of the arrays it found. -/
theorem final2 (c : Dev nD) : (dat2 V c).arrAt 3 cfg2.N = layer2 (V c main_arg1) (V c main_v3) (fun q => (V c main_v1 : Vec Ideal S1x16 .f32) (ix2 (0 : Fin 1) (q 0))) :=
  (dat2 V c).arrAt_eq_of_cover 3 (layer2 (V c main_arg1) (V c main_v3) (fun q => (V c main_v1 : Vec Ideal S1x16 .f32) (ix2 (0 : Fin 1) (q 0)))) (fun t _ => flushed2 V c t) cover2

end Cert.KernelIdeal.Val

end
-- ==== Proof.KernelNet.lean ====
/-
  The kernel program's result array after the run, as one function of the launch arrays: the network of `Cert.Spec`.

  @main reshapes the two biases to one-row matrices, then runs the three regions. Each region finds the launch
  arrays untouched (no region and no host operation writes an argument) and the arrays the earlier regions left:
  region 0 leaves S = X · W₁; region 1 reads S and leaves T = relu (A · S + b₁) · W₂; region 2 reads T and leaves
  A · T + b₂. A bias reshaped from [n] to [1, n] reads, at (0, j), the bias at j.
-/
import proofs.«172649_g47330539602753_cont_8to1_c_31_2_alg».proof.Proof.KernelValue
import proofs.«172649_g47330539602753_cont_8to1_c_31_2_alg».proof.Proof.KernelIdealRun
import Idealize.ShloMosaic.Lib.StableHlo.Run
import Idealize.ShloMosaic.Lib.ValueLayout

set_option maxRecDepth 16384

noncomputable section

open scoped BigOperators

namespace Cert.KernelIdeal.Net

open Cert.KernelIdeal Cert.KernelIdeal.Gen Cert.KernelIdeal.Val Cert.Spec
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## After the two reshapes (region 0's entry) -/

theorem entry0_x (c : Dev nD) : V1 m ρ c main_arg0 = m ((c : Thread nD τ).loc main_arg0) := by
  show StableHlo.after hostOps0 (W0 m ρ c) (Proc.devRef .tc main_arg0) = _
  after_results <;> rfl
theorem entry0_adj (c : Dev nD) : V1 m ρ c main_arg1 = m ((c : Thread nD τ).loc main_arg1) := by
  show StableHlo.after hostOps0 (W0 m ρ c) (Proc.devRef .tc main_arg1) = _
  after_results <;> rfl
theorem entry0_w1 (c : Dev nD) : V1 m ρ c main_arg2 = m ((c : Thread nD τ).loc main_arg2) := by
  show StableHlo.after hostOps0 (W0 m ρ c) (Proc.devRef .tc main_arg2) = _
  after_results <;> rfl
theorem entry0_w2 (c : Dev nD) : V1 m ρ c main_arg4 = m ((c : Thread nD τ).loc main_arg4) := by
  show StableHlo.after hostOps0 (W0 m ρ c) (Proc.devRef .tc main_arg4) = _
  after_results <;> rfl
/-- The first bias as one row. -/
theorem entry0_b1 (c : Dev nD) : (V1 m ρ c main_v0 : Vec Ideal S1x32 .f32) = shapeCast S1x32 (m ((c : Thread nD τ).loc main_arg3)) shapeCasts_S32_S1x32 := by
  show StableHlo.after hostOps0 (W0 m ρ c) (Proc.devRef .tc main_v0) = _
  after_results <;> rfl
/-- The second bias as one row. -/
theorem entry0_b2 (c : Dev nD) : (V1 m ρ c main_v1 : Vec Ideal S1x16 .f32) = shapeCast S1x16 (m ((c : Thread nD τ).loc main_arg5)) shapeCasts_S16_S1x16 := by
  show StableHlo.after hostOps0 (W0 m ρ c) (Proc.devRef .tc main_v1) = _
  after_results <;> rfl

/-! ## Region 1's entry: what region 0 left -/

theorem entry1_adj (c : Dev nD) : V2 m ρ c main_arg1 = m ((c : Thread nD τ).loc main_arg1) :=
  (W2_of_ne m ρ c main_arg1 (by decide)).trans (entry0_adj m ρ c)
theorem entry1_w2 (c : Dev nD) : V2 m ρ c main_arg4 = m ((c : Thread nD τ).loc main_arg4) :=
  (W2_of_ne m ρ c main_arg4 (by decide)).trans (entry0_w2 m ρ c)
theorem entry1_b1 (c : Dev nD) : (V2 m ρ c main_v0 : Vec Ideal S1x32 .f32) = shapeCast S1x32 (m ((c : Thread nD τ).loc main_arg3)) shapeCasts_S32_S1x32 :=
  (W2_of_ne m ρ c main_v0 (by decide)).trans (entry0_b1 m ρ c)
theorem entry1_b2 (c : Dev nD) : (V2 m ρ c main_v1 : Vec Ideal S1x16 .f32) = shapeCast S1x16 (m ((c : Thread nD τ).loc main_arg5)) shapeCasts_S16_S1x16 :=
  (W2_of_ne m ρ c main_v1 (by decide)).trans (entry0_b2 m ρ c)
/-- S = X · W₁. -/
theorem entry1_s (c : Dev nD) : (V2 m ρ c main_v2 : Vec Ideal S10000x32 .f32) = mm (m ((c : Thread nD τ).loc main_arg0)) (m ((c : Thread nD τ).loc main_arg2)) := by
  refine (W2_arr m ρ c 2).trans ((final0 (V1 m ρ) c).trans ?_)
  rw [entry0_x, entry0_w1]

/-! ## Region 2's entry: what region 1 left -/

theorem entry2_adj (c : Dev nD) : V3 m ρ c main_arg1 = m ((c : Thread nD τ).loc main_arg1) :=
  ((W3_arr m ρ c 0).trans (((dat1 (V2 m ρ) c).arrAt_in 0 rfl _).trans (A_eq1 (V2 m ρ) c 0))).trans (entry1_adj m ρ c)
theorem entry2_b2 (c : Dev nD) : (V3 m ρ c main_v1 : Vec Ideal S1x16 .f32) = shapeCast S1x16 (m ((c : Thread nD τ).loc main_arg5)) shapeCasts_S16_S1x16 :=
  (W3_of_ne m ρ c main_v1 (by decide)).trans (entry1_b2 m ρ c)
/-- T = relu (A · S + b₁) · W₂. -/
theorem entry2_t (c : Dev nD) : (V3 m ρ c main_v3 : Vec Ideal S10000x16 .f32)
    = layer1 (m ((c : Thread nD τ).loc main_arg1)) (mm (m ((c : Thread nD τ).loc main_arg0)) (m ((c : Thread nD τ).loc main_arg2)))
        (m ((c : Thread nD τ).loc main_arg3)) (m ((c : Thread nD τ).loc main_arg4)) := by
  refine (W3_arr m ρ c 4).trans ((final1 (V2 m ρ) c).trans ?_)
  rw [entry1_adj, entry1_s, entry1_w2, entry1_b1]
  refine congrArg (fun b : Row 32 => layer1 _ _ b _) (funext fun q => ?_)
  obtain ⟨h, rfl⟩ : ∃ h : Fin 32, q = ix1 h := ⟨q 0, eq_ix1 q⟩
  exact shapeCast_a_1a_apply _ _ 0 h

/-! ## The result -/

/-- The result array after the run is the network of the launch arrays. -/
theorem result (c : Dev nD) : (W4 m ρ c (Proc.devRef .tc main_v4) : Vec Ideal S10000x16 .f32)
    = gcn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W4_arr m ρ c 3).trans ((final2 (V3 m ρ) c).trans ?_)
  rw [entry2_adj, entry2_t, entry2_b2]
  refine congrArg (fun b : Row 16 => layer2 _ _ b) (funext fun q => ?_)
  obtain ⟨h, rfl⟩ : ∃ h : Fin 16, q = ix1 h := ⟨q 0, eq_ix1 q⟩
  exact shapeCast_a_1a_apply _ _ 0 h

/-- The run of the idealized kernel program, read: the result array at the network of the launch arrays, the
    arguments unchanged. -/
theorem run : θ_run defs (onTc (τ := τ) (main (F := Ideal))) ⟨m, fun _ => 0, ρ⟩ (fun r => ∀ c : Dev nD,
      r.2.mem ((c.tc : Thread nD τ).loc main_v4)
        = gcn (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result m ρ c), (h c).2⟩)
    (Cert.KernelIdeal.Whole.run_main (F := Ideal) m ρ)

end Cert.KernelIdeal.Net

end
-- ==== Proof.RefValue.lean ====
/-
  The reference's result, read one operation at a time, is the network of `Cert.Spec`.

  Each host `dot_general` contracts the left operand's second axis with the right operand's first, so at an index
  (r, c) it is the sum over `k` of `l (r, k) · r (k, c)`: the matrix product. A bias of shape [n] broadcast first to
  [1, n] and then to every row reads, at (r, c), the bias at `c`. relu is the maximum with the broadcast zero word,
  and that word is the extended real 0.
-/
import proofs.«172649_g47330539602753_cont_8to1_c_31_2_alg».proof.Proof.Gen.ReferenceIdeal.Run
import proofs.«172649_g47330539602753_cont_8to1_c_31_2_alg».proof.Proof.Gen.ReferenceIdeal.Read
import proofs.«172649_g47330539602753_cont_8to1_c_31_2_alg».proof.Proof.Spec

noncomputable section

namespace Cert.ReferenceIdeal.RefValue

open Cert.ReferenceIdeal Cert.ReferenceIdeal.Gen Cert.ReferenceIdeal.Read Cert.Spec
open Idealize.ShloMosaic Idealize.ShloMosaic.TcCoe Idealize.ShloMosaic.ValueIdx

/-- X · W₁. -/
theorem support_eq (x : Mat 10000 128) (w1 : Mat 128 32) : val_main_v0 (F := Ideal) x w1 = mm x w1 := by
  funext i
  rw [val_main_v0_apply]
  refine Finset.sum_congr rfl fun k _ => ?_
  have el : lidx_main_v0 i k = ix2 (i 0) k := funext fun a => by match a with | ⟨0, _⟩ => rfl | ⟨1, _⟩ => rfl
  have er : ridx_main_v0 i k = ix2 k (i 1) := funext fun a => by match a with | ⟨0, _⟩ => rfl | ⟨1, _⟩ => rfl
  rw [el, er]
  rfl

/-- A · (X · W₁). -/
theorem agg1_eq (x : Mat 10000 128) (adj : Mat 10000 10000) (w1 : Mat 128 32) :
    val_main_v1 (F := Ideal) x adj w1 = mm adj (mm x w1) := by
  funext i
  rw [val_main_v1_apply, support_eq]
  refine Finset.sum_congr rfl fun k _ => ?_
  have el : lidx_main_v1 i k = ix2 (i 0) k := funext fun a => by match a with | ⟨0, _⟩ => rfl | ⟨1, _⟩ => rfl
  have er : ridx_main_v1 i k = ix2 k (i 1) := funext fun a => by match a with | ⟨0, _⟩ => rfl | ⟨1, _⟩ => rfl
  rw [el, er]
  rfl

/-- The first bias on every row. -/
theorem bias1_apply (b1 : Row 32) (i : S10000x32.Idx) : val_main_v3 (F := Ideal) b1 i = b1 (ix1 (i 1)) := by
  rw [val_main_v3_apply, val_main_v2_apply]
  exact congrArg b1 (funext fun a => by match a with | ⟨0, _⟩ => rfl)

/-- relu (A · (X · W₁) + b₁). -/
theorem hidden_eq (x : Mat 10000 128) (adj : Mat 10000 10000) (w1 : Mat 128 32) (b1 : Row 32) :
    val_main_v5 (F := Ideal) x adj w1 b1 = relu (addRow (mm adj (mm x w1)) b1) := by
  funext i
  rw [val_main_v5_apply, val_main_v4_apply, agg1_eq, bias1_apply, val_main_call0_v0_apply, val_main_call0_cst_apply]
  change max (_ : EReal) (Ideal.ofBits .f32 0x00000000#32) = _
  rw [Ideal.ofBits_zero_f32]
  rfl

/-- relu (…) · W₂. -/
theorem support2_eq (x : Mat 10000 128) (adj : Mat 10000 10000) (w1 : Mat 128 32) (b1 : Row 32) (w2 : Mat 32 16) :
    val_main_v6 (F := Ideal) x adj w1 b1 w2 = layer1 adj (mm x w1) b1 w2 := by
  funext i
  rw [val_main_v6_apply, hidden_eq]
  show _ = mm (relu (addRow (mm adj (mm x w1)) b1)) w2 i
  refine Finset.sum_congr rfl fun k _ => ?_
  have el : lidx_main_v6 i k = ix2 (i 0) k := funext fun a => by match a with | ⟨0, _⟩ => rfl | ⟨1, _⟩ => rfl
  have er : ridx_main_v6 i k = ix2 k (i 1) := funext fun a => by match a with | ⟨0, _⟩ => rfl | ⟨1, _⟩ => rfl
  rw [el, er]
  rfl

/-- The second bias on every row. -/
theorem bias2_apply (b2 : Row 16) (i : S10000x16.Idx) : val_main_v9 (F := Ideal) b2 i = b2 (ix1 (i 1)) := by
  rw [val_main_v9_apply, val_main_v8_apply]
  exact congrArg b2 (funext fun a => by match a with | ⟨0, _⟩ => rfl)

/-- The reference's result is the network. -/
theorem result_eq (x : Mat 10000 128) (adj : Mat 10000 10000) (w1 : Mat 128 32) (b1 : Row 32) (w2 : Mat 32 16) (b2 : Row 16) :
    val_main_v10 (F := Ideal) x adj w1 b1 w2 b2 = gcn x adj w1 b1 w2 b2 := by
  funext i
  rw [val_main_v10_apply, val_main_v7_apply, support2_eq, bias2_apply]
  show ((∑ k : Fin 10000, adj (lidx_main_v7 i k) * layer1 adj (mm x w1) b1 w2 (ridx_main_v7 i k) : EReal)) + b2 (ix1 (i 1))
      = ((∑ k : Fin 10000, adj (ix2 (i 0) k) * layer1 adj (mm x w1) b1 w2 (ix2 k (i 1)) : EReal)) + b2 (ix1 (i 1))
  refine congrArg (fun z : EReal => z + b2 (ix1 (i 1))) (Finset.sum_congr rfl fun k _ => ?_)
  have el : lidx_main_v7 i k = ix2 (i 0) k := funext fun a => by match a with | ⟨0, _⟩ => rfl | ⟨1, _⟩ => rfl
  have er : ridx_main_v7 i k = ix2 k (i 1) := funext fun a => by match a with | ⟨0, _⟩ => rfl | ⟨1, _⟩ => rfl
  rw [el, er]
  rfl

end Cert.ReferenceIdeal.RefValue

end
-- ==== Proof.lean ====
/-
  A two-layer graph convolution with a dense adjacency matrix, out = A · (relu (A · (X · W₁) + b₁) · W₂) + b₂,
  computed by three kernels (X · W₁ in one block; then, over 25 blocks of 400 rows of A, relu (A · S + b₁) · W₂; then,
  over the same row blocks, A · T + b₂) against the same expression written with whole-array matrix products.

  At the ideal values both sides are the same sums of products of extended reals, entry by entry: a row block of a
  matrix product is the product of the row block, so tiling A by rows changes nothing, and no algebraic law beyond
  that is used (in particular nothing needs the inputs to be finite). The kernel program's result array is read
  off its run region by region (`Cert.KernelIdeal.Net.run`), the reference's off its run one operation at a time
  (`Cert.ReferenceIdeal.RefValue.result_eq`), and both are `Cert.Spec.gcn` of the argument arrays.
-/
import proofs.«172649_g47330539602753_cont_8to1_c_31_2_alg».proof.Defs
import proofs.«172649_g47330539602753_cont_8to1_c_31_2_alg».proof.Proof.Gen.Kernel
import proofs.«172649_g47330539602753_cont_8to1_c_31_2_alg».proof.Proof.Gen.Kernel.Frame
import proofs.«172649_g47330539602753_cont_8to1_c_31_2_alg».proof.Proof.Gen.KernelIdeal
import proofs.«172649_g47330539602753_cont_8to1_c_31_2_alg».proof.Proof.Gen.KernelIdeal.Frame
import proofs.«172649_g47330539602753_cont_8to1_c_31_2_alg».proof.Proof.Gen.ReferenceIdeal
import proofs.«172649_g47330539602753_cont_8to1_c_31_2_alg».proof.Proof.Gen.ReferenceIdeal.Run
import proofs.«172649_g47330539602753_cont_8to1_c_31_2_alg».proof.Proof.Gen.Pre_finite_inputs
import proofs.«172649_g47330539602753_cont_8to1_c_31_2_alg».proof.Proof.KernelNet
import proofs.«172649_g47330539602753_cont_8to1_c_31_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program read at the ideal values. -/
theorem frame_kernelIdeal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read at the ideal values. -/
theorem preserves : Cert.preserves_Kernel_KernelIdeal := trivial

/-- From memories agreeing on the six arguments both programs end with the network of those arguments in their
    result arrays. -/
theorem algebraic : Cert.algebraic_KernelIdeal_ReferenceIdeal := by
  intro m ρ m' ρ' _ hagree
  refine ⟨_, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
